-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_scale" .f32 0x3D13CD3A#32 ((524288 / 14529495 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x77x768 : Shape := ⟨3, ![1024, 77, 768]⟩
abbrev S_ : Shape := ⟨0, ![]⟩

class Facts : Prop where
  bcast_S_S1024x77x768 : S_.BroadcastsInDim S1024x77x768 (![] : Fin 0 → Fin S1024x77x768.rank)
  reducesTo_S1024x77x768_S_d0_1_2 : S1024x77x768.ReducesTo [0, 1, 2] S_
  h_S_ : 0 < S_.numel

variable [Facts]

def fn {F : FTy → Type} [FloatOps F] (main_arg0 : FVec F S1024x77x768 .f32) (main_arg1 : FVec F S1024x77x768 .f32) : IVec S_ 1 :=
  let main_v0 : FVec F S1024x77x768 .f32 := Host.absf main_arg0
  let main_cst : FVec F S_ .f32 := constant S_ .f32 0x7F800000#32
  let main_v1 : FVec F S1024x77x768 .f32 := broadcastInDim S1024x77x768 ![] bcast_S_S1024x77x768 main_cst
  let main_v2 : IVec S1024x77x768 1 := cmpf .olt main_v0 main_v1
  let main_c : IVec S_ 1 := constantI S_ 1 1#1
  let main_v3 : IVec S_ 1 := (fun x v => Host.reduce IntOp.andi x v reducesTo_S1024x77x768_S_d0_1_2 h_S_) main_v2 main_c
  let main_v4 : FVec F S1024x77x768 .f32 := Host.absf main_arg1
  let main_cst_0 : FVec F S_ .f32 := constant S_ .f32 0x7F800000#32
  let main_v5 : FVec F S1024x77x768 .f32 := broadcastInDim S1024x77x768 ![] bcast_S_S1024x77x768 main_cst_0
  let main_v6 : IVec S1024x77x768 1 := cmpf .olt main_v4 main_v5
  let main_c_1 : IVec S_ 1 := constantI S_ 1 1#1
  let main_v7 : IVec S_ 1 := (fun x v => Host.reduce IntOp.andi x v reducesTo_S1024x77x768_S_d0_1_2 h_S_) main_v6 main_c_1
  let main_v8 : IVec S_ 1 := andi main_v3 main_v7
  main_v8
-- ==== Kernel.lean ====
abbrev S1024x77x768 : Shape := ⟨3, ![1024, 77, 768]⟩
abbrev S77 : Shape := ⟨1, ![77]⟩
abbrev S77x1 : Shape := ⟨2, ![77, 1]⟩
abbrev S1x77 : Shape := ⟨2, ![1, 77]⟩
abbrev S77x77 : Shape := ⟨2, ![77, 77]⟩
abbrev S_ : Shape := ⟨0, ![]⟩
abbrev S16x77x768 : Shape := ⟨3, ![16, 77, 768]⟩
abbrev S16x77x77 : Shape := ⟨3, ![16, 77, 77]⟩
abbrev S1x77x77 : Shape := ⟨3, ![1, 77, 77]⟩
abbrev S16x77 : Shape := ⟨2, ![16, 77]⟩
abbrev S16x77x1 : Shape := ⟨3, ![16, 77, 1]⟩

abbrev nBuf : Space → Nat
  | .hbm => 15
  | .vmem => 7
  | .smem => 0
  | _ => 0

abbrev bufTy : (tb : Table) → Fin (tcTables nBuf tb) → BufTy
  | .hbm, ⟨0, _⟩ => ⟨S1024x77x768, .f32⟩
  | .hbm, ⟨1, _⟩ => ⟨S1024x77x768, .f32⟩
  | .hbm, ⟨2, _⟩ => ⟨S77, .i32⟩
  | .hbm, ⟨3, _⟩ => ⟨S77x1, .i32⟩
  | .hbm, ⟨4, _⟩ => ⟨S1x77, .i32⟩
  | .hbm, ⟨5, _⟩ => ⟨S77x77, .i32⟩
  | .hbm, ⟨6, _⟩ => ⟨S77x77, .i32⟩
  | .hbm, ⟨7, _⟩ => ⟨S77x77, .i32⟩
  | .hbm, ⟨8, _⟩ => ⟨S77x77, .i32⟩
  | .hbm, ⟨9, _⟩ => ⟨S77x77, .f32⟩
  | .hbm, ⟨10, _⟩ => ⟨S77x77, .f32⟩
  | .hbm, ⟨11, _⟩ => ⟨S_, .f32⟩
  | .hbm, ⟨12, _⟩ => ⟨S77x77, .f32⟩
  | .hbm, ⟨13, _⟩ => ⟨S77x77, .f32⟩
  | .hbm, ⟨14, _⟩ => ⟨S1024x77x768, .f32⟩
  | .local _ .vmem, ⟨0, _⟩ => ⟨S16x77x768, .f32⟩
  | .local _ .vmem, ⟨1, _⟩ => ⟨S16x77x768, .f32⟩
  | .local _ .vmem, ⟨2, _⟩ => ⟨S16x77x768, .f32⟩
  | .local _ .vmem, ⟨3, _⟩ => ⟨S16x77x768, .f32⟩
  | .local _ .vmem, ⟨4, _⟩ => ⟨S77x77, .f32⟩
  | .local _ .vmem, ⟨5, _⟩ => ⟨S16x77x768, .f32⟩
  | .local _ .vmem, ⟨6, _⟩ => ⟨S16x77x768, .f32⟩
  | _, _ => ⟨S1024x77x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x77x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x77x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S77x77 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x77x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S77_S77x1_0 : S77.BroadcastsInDim S77x1 (![0] : Fin 1 → Fin S77x1.rank)
  bcast_S77_S1x77_1 : S77.BroadcastsInDim S1x77 (![1] : Fin 1 → Fin S1x77.rank)
  bcast_S77x1_S77x77_0_1 : S77x1.BroadcastsInDim S77x77 (![0, 1] : Fin 2 → Fin S77x77.rank)
  bcast_S1x77_S77x77_0_1 : S1x77.BroadcastsInDim S77x77 (![0, 1] : Fin 2 → Fin S77x77.rank)
  bcast_S_S77x77 : S_.BroadcastsInDim S77x77 (![] : Fin 0 → Fin S77x77.rank)
  inb_S16x77x768_S16x77x768_0_0_0 : ∀ a, (![0, 0, 0] : Fin 3 → Nat) a + S16x77x768.size a ≤ S16x77x768.size a
  h_S16x77x768 : 0 < S16x77x768.numel
  bitsLt_bf16_f32 : FTy.bits .bf16 < FTy.bits .f32
  inb_S77x77_S77x77_0_0 : ∀ a, (![0, 0] : Fin 2 → Nat) a + S77x77.size a ≤ S77x77.size a
  h_S77x77 : 0 < S77x77.numel
  shapeCasts_S77x77_S77x77 : S77x77.ShapeCasts S77x77
  shapeCasts_S77x77_S1x77x77 : S77x77.ShapeCasts S1x77x77
  broadcasts_S1x77x77_S16x77x77 : S1x77x77.Broadcasts S16x77x77
  reduces_S16x77x77_S16x77 : S16x77x77.Reduces [2] S16x77
  shapeCasts_S16x77_S16x77x1 : S16x77.ShapeCasts S16x77x1
  broadcasts_S16x77x1_S16x77x77 : S16x77x1.Broadcasts S16x77x77
  dot_S16x77x768_S16x77x768_S16x77x77_2_2_1_1_0_0_wf : DotDims.WF S16x77x768 S16x77x768 S16x77x77 [2] [2] [1] [1] [0] [0]
  dot_S16x77x77_S16x77x768_S16x77x768_2_1_1_2_0_0_wf : DotDims.WF S16x77x77 S16x77x768 S16x77x768 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x77x768.size a ≤ S1024x77x768.size a
  hwx0_0 : ∀ i : grid0.Coords, EltTy.bits .f32 = 32 ∨ (Rect.block (s := S1024x77x768) S16x77x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x77x768.size a ≤ S1024x77x768.size a
  hwx0_1 : ∀ i : grid0.Coords, EltTy.bits .f32 = 32 ∨ (Rect.block (s := S1024x77x768) S16x77x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S77x77.size a ≤ S77x77.size a
  hwx0_2 : ∀ i : grid0.Coords, EltTy.bits .f32 = 32 ∨ (Rect.block (s := S77x77) S77x77.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x77x768.size a ≤ S1024x77x768.size a
  hwx0_3 : ∀ i : grid0.Coords, EltTy.bits .f32 = 32 ∨ (Rect.block (s := S1024x77x768) S16x77x768.size (cc0_transform_3 i) (hinb0_3 i)).WholeWords (EltTy.packing .f32)

variable [Facts₀]

def dot_S16x77x768_S16x77x768_S16x77x77_2_2_1_1_0_0 : DotDims S16x77x768 S16x77x768 S16x77x77 where
  lhsContracting := [2]
  rhsContracting := [2]
  lhsNonContracting := [1]
  rhsNonContracting := [1]
  lhsBatch := [0]
  rhsBatch := [0]
  wf := dot_S16x77x768_S16x77x768_S16x77x77_2_2_1_1_0_0_wf
def dot_S16x77x77_S16x77x768_S16x77x768_2_1_1_2_0_0 : DotDims S16x77x77 S16x77x768 S16x77x768 where
  lhsContracting := [2]
  rhsContracting := [1]
  lhsNonContracting := [1]
  rhsNonContracting := [2]
  lhsBatch := [0]
  rhsBatch := [0]
  wf := dot_S16x77x77_S16x77x768_S16x77x768_2_1_1_2_0_0_wf

abbrev win0_0 : Pipeline.Window sig grid0 :=
  Pipeline.Window.ofSpec (Memref.whole main_arg0) S16x77x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x77x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S77x77.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S16x77x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x77x768 : Shape := ⟨3, ![1024, 77, 768]⟩
abbrev S77 : Shape := ⟨1, ![77]⟩
abbrev S77x1 : Shape := ⟨2, ![77, 1]⟩
abbrev S1x77 : Shape := ⟨2, ![1, 77]⟩
abbrev S77x77 : Shape := ⟨2, ![77, 77]⟩
abbrev S1024x77x77 : Shape := ⟨3, ![1024, 77, 77]⟩
abbrev S_ : Shape := ⟨0, ![]⟩
abbrev S1x77x77 : Shape := ⟨3, ![1, 77, 77]⟩
abbrev S1024x77 : Shape := ⟨2, ![1024, 77]⟩
abbrev S1024x77x1 : Shape := ⟨3, ![1024, 77, 1]⟩

abbrev nBuf : Space → Nat
  | .hbm => 35
  | .vmem => 0
  | .smem => 0
  | _ => 0

abbrev bufTy : (tb : Table) → Fin (tcTables nBuf tb) → BufTy
  | .hbm, ⟨0, _⟩ => ⟨S1024x77x768, .f32⟩
  | .hbm, ⟨1, _⟩ => ⟨S1024x77x768, .f32⟩
  | .hbm, ⟨2, _⟩ => ⟨S77, .i32⟩
  | .hbm, ⟨3, _⟩ => ⟨S77x1, .i32⟩
  | .hbm, ⟨4, _⟩ => ⟨S1x77, .i32⟩
  | .hbm, ⟨5, _⟩ => ⟨S77x77, .i32⟩
  | .hbm, ⟨6, _⟩ => ⟨S77x77, .i32⟩
  | .hbm, ⟨7, _⟩ => ⟨S77x77, .i32⟩
  | .hbm, ⟨8, _⟩ => ⟨S77x77, .i32⟩
  | .hbm, ⟨9, _⟩ => ⟨S77x77, .f32⟩
  | .hbm, ⟨10, _⟩ => ⟨S1024x77x77, .f32⟩
  | .hbm, ⟨11, _⟩ => ⟨S_, .f32⟩
  | .hbm, ⟨12, _⟩ => ⟨S1024x77x77, .f32⟩
  | .hbm, ⟨13, _⟩ => ⟨S1024x77x77, .f32⟩
  | .hbm, ⟨14, _⟩ => ⟨S_, .f32⟩
  | .hbm, ⟨15, _⟩ => ⟨S77x77, .f32⟩
  | .hbm, ⟨16, _⟩ => ⟨S77x77, .f32⟩
  | .hbm, ⟨17, _⟩ => ⟨S1x77x77, .f32⟩
  | .hbm, ⟨18, _⟩ => ⟨S1024x77x77, .f32⟩
  | .hbm, ⟨19, _⟩ => ⟨S1024x77x77, .f32⟩
  | .hbm, ⟨20, _⟩ => ⟨S_, .f32⟩
  | .hbm, ⟨21, _⟩ => ⟨S1024x77, .f32⟩
  | .hbm, ⟨22, _⟩ => ⟨S_, .f32⟩
  | .hbm, ⟨23, _⟩ => ⟨S1024x77, .f32⟩
  | .hbm, ⟨24, _⟩ => ⟨S1024x77, .f32⟩
  | .hbm, ⟨25, _⟩ => ⟨S1024x77x1, .f32⟩
  | .hbm, ⟨26, _⟩ => ⟨S1024x77x77, .f32⟩
  | .hbm, ⟨27, _⟩ => ⟨S1024x77x77, .f32⟩
  | .hbm, ⟨28, _⟩ => ⟨S1024x77x77, .f32⟩
  | .hbm, ⟨29, _⟩ => ⟨S_, .f32⟩
  | .hbm, ⟨30, _⟩ => ⟨S1024x77, .f32⟩
  | .hbm, ⟨31, _⟩ => ⟨S1024x77x1, .f32⟩
  | .hbm, ⟨32, _⟩ => ⟨S1024x77x77, .f32⟩
  | .hbm, ⟨33, _⟩ => ⟨S1024x77x77, .f32⟩
  | .hbm, ⟨34, _⟩ => ⟨S1024x77x768, .f32⟩
  | _, _ => ⟨S1024x77x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  bcast_S77_S77x1_0 : S77.BroadcastsInDim S77x1 (![0] : Fin 1 → Fin S77x1.rank)
  bcast_S77_S1x77_1 : S77.BroadcastsInDim S1x77 (![1] : Fin 1 → Fin S1x77.rank)
  bcast_S77x1_S77x77_0_1 : S77x1.BroadcastsInDim S77x77 (![0, 1] : Fin 2 → Fin S77x77.rank)
  bcast_S1x77_S77x77_0_1 : S1x77.BroadcastsInDim S77x77 (![0, 1] : Fin 2 → Fin S77x77.rank)
  bcast_S_S1024x77x77 : S_.BroadcastsInDim S1024x77x77 (![] : Fin 0 → Fin S1024x77x77.rank)
  bcast_S_S77x77 : S_.BroadcastsInDim S77x77 (![] : Fin 0 → Fin S77x77.rank)
  bcast_S77x77_S1x77x77_1_2 : S77x77.BroadcastsInDim S1x77x77 (![1, 2] : Fin 2 → Fin S1x77x77.rank)
  bcast_S1x77x77_S1024x77x77_0_1_2 : S1x77x77.BroadcastsInDim S1024x77x77 (![0, 1, 2] : Fin 3 → Fin S1024x77x77.rank)
  reducesTo_S1024x77x77_S1024x77_d2 : S1024x77x77.ReducesTo [2] S1024x77
  h_S_ : 0 < S_.numel
  bcast_S_S1024x77 : S_.BroadcastsInDim S1024x77 (![] : Fin 0 → Fin S1024x77.rank)
  bcast_S1024x77_S1024x77x1_0_1 : S1024x77.BroadcastsInDim S1024x77x1 (![0, 1] : Fin 2 → Fin S1024x77x1.rank)
  bcast_S1024x77x1_S1024x77x77_0_1_2 : S1024x77x1.BroadcastsInDim S1024x77x77 (![0, 1, 2] : Fin 3 → Fin S1024x77x77.rank)
  dot_S1024x77x768_S1024x77x768_S1024x77x77_2_2_1_1_0_0_wf : DotDims.WF S1024x77x768 S1024x77x768 S1024x77x77 [2] [2] [1] [1] [0] [0]
  dot_S1024x77x77_S1024x77x768_S1024x77x768_2_1_1_2_0_0_wf : DotDims.WF S1024x77x77 S1024x77x768 S1024x77x768 [2] [1] [1] [2] [0] [0]

variable [Facts₀]

def dot_S1024x77x768_S1024x77x768_S1024x77x77_2_2_1_1_0_0 : DotDims S1024x77x768 S1024x77x768 S1024x77x77 where
  lhsContracting := [2]
  rhsContracting := [2]
  lhsNonContracting := [1]
  rhsNonContracting := [1]
  lhsBatch := [0]
  rhsBatch := [0]
  wf := dot_S1024x77x768_S1024x77x768_S1024x77x77_2_2_1_1_0_0_wf
def dot_S1024x77x77_S1024x77x768_S1024x77x768_2_1_1_2_0_0 : DotDims S1024x77x77 S1024x77x768 S1024x77x768 where
  lhsContracting := [2]
  rhsContracting := [1]
  lhsNonContracting := [1]
  rhsNonContracting := [2]
  lhsBatch := [0]
  rhsBatch := [0]
  wf := dot_S1024x77x77_S1024x77x768_S1024x77x768_2_1_1_2_0_0_wf

class Facts : Prop extends Facts₀ where

variable [Facts]
-- ==== Proof.RowAttention.lean ====
/-
  The mathematics the kernel and the reference share, over the extended reals and free of either program.

  One query row of attention: the row's scores `s k` over the keys, the softmax of that row computed as both
  programs compute it (every score shifted by the row's maximum, exponentiated, divided by the row's sum of
  exponentials), and the weighted sum of one column `v k` of the values (`rowAttn`).

  The two programs differ before the softmax only: the kernel scales each query entry by `1/D` before the
  products and adds a bias `(-δ)·P`; the reference divides the sum of products by `D` and subtracts `δ·P`.
  On real entries the scaling leaves the sum (`scaled_dot`: distributivity, which needs finite entries), and
  `a + (-δ)·P = a - δ·P` on all extended reals (`add_neg_mul`).
-/
import Idealize.ShloMosaic.PureOps.Ideal

noncomputable section

open scoped BigOperators

namespace Cert.Attn

open Idealize.ShloMosaic

/-- One query row: the softmax weights of the scores `s` (shifted by their maximum) applied to the column `v`. -/
def rowAttn {n : ℕ} (s v : Fin n → EReal) : EReal :=
  ∑ k, Ideal.div (Ideal.exp (s k - Finset.univ.fold max ⊥ s))
      (∑ j, Ideal.exp (s j - Finset.univ.fold max ⊥ s)) * v k

/-- The coercion of the reals into the extended reals commutes with finite sums. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Scaling every query entry by `c = 1/D` before the products is dividing the sum of products by `D`, when the
    entries are real: `∑ (x·c)·y = (∑ x·y)·c` is distributivity, and division by a nonzero real is the product with
    its reciprocal. -/
theorem scaled_dot {n : ℕ} (x y : Fin n → EReal) (hx : ∀ d, ∃ r : ℝ, x d = r) (hy : ∀ d, ∃ r : ℝ, y d = r)
    (c D : ℝ) (hD : D ≠ 0) (hc : c = 1 / D) :
    ∑ d, (x d * (c : EReal)) * y d = Ideal.div (∑ d, x d * y d) (D : EReal) := by
  choose xr hxr using hx
  choose yr hyr using hy
  have hL : ∑ d, (x d * (c : EReal)) * y d = ((∑ d, xr d * c * yr d : ℝ) : EReal) := by
    rw [coe_sum]
    exact Finset.sum_congr rfl fun d _ => by rw [hxr, hyr, EReal.coe_mul, EReal.coe_mul]
  have hR : ∑ d, x d * y d = ((∑ d, xr d * yr d : ℝ) : EReal) := by
    rw [coe_sum]
    exact Finset.sum_congr rfl fun d _ => by rw [hxr, hyr, EReal.coe_mul]
  rw [hL, hR, Ideal.div_coe hD, ← EReal.coe_mul, Finset.sum_mul, ← hc]
  exact congrArg Real.toEReal (Finset.sum_congr rfl fun d _ => by ring)

/-- Adding `(-δ)·P` is subtracting `δ·P`, at the infinities too. -/
theorem add_neg_mul (a δ P : EReal) : a + (-δ) * P = a - δ * P := by
  rw [EReal.neg_mul, sub_eq_add_neg]

end Cert.Attn

end
-- ==== Proof.Consts.lean ====
/-
  The float constants the two programs spell, as the extended reals their patterns denote: the reference's divisor
  (the f32 nearest to √768, the dyadic rational 14529495/524288) and the starting value of both row maxima (−∞).
-/
import Idealize.ShloMosaic.PureOps.Ideal

noncomputable section

namespace Cert.Consts

open Idealize.ShloMosaic

/-- The reference's divisor, the f32 word nearest to √768, denotes the rational 14529495/524288. -/
theorem ofBits_scale : Ideal.ofBits .f32 0x41DDB3D7#32 = ((14529495 / 524288 : ℝ) : EReal) := by
  simp [Ideal.ofBits, Ideal.ieee, -EReal.coe_mul]; norm_num

/-- The row maxima start from −∞. -/
theorem ofBits_neg_inf : Ideal.ofBits .f32 0xFF800000#32 = ⊥ := by
  simp [Ideal.ofBits, Ideal.ieee]

end Cert.Consts

end
-- ==== Proof.LibKeepdims.lean ====
/-
  Layout operations read at an index by coordinates, for the shapes a row reduction with its reduced axis kept
  produces: an `[a, b]` array given a trailing unit axis, an `[a, b, 1]` array broadcast along that axis to
  `[a, b, c]` (the two together: every entry of row `(i, j)` reads the row's one value), and a `[1, a, b]` array
  broadcast along its leading axis to `[m, a, b]` (every member reads the one matrix). Any sizes, any element type.
-/
import Idealize.ShloMosaic.Lib.ValueIdx
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`: a trailing unit axis does
    not move the row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast along its last axis to `[a, b, c]` reads, at `(i, j, k)`, the operand at
    `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The two together, the column a reduction over the last axis keeps: every entry `(i, j, k)` of the broadcast reads
    the `[a, b]` array at `(i, j)`. -/
theorem keptColumn_apply {a b c : ℕ} (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x h1) h2 (ix3 i j k) = x (ix2 i j) :=
  (broadcastTo_ab1_abc_apply _ h2 i j k).trans (shapeCast_ab_ab1_apply x h1 i j 0)

/-- A `[1, a, b]` array broadcast along its leading axis to `[m, a, b]` reads, at `(p, i, j)`, the operand's one
    matrix at `(i, j)`. -/
theorem broadcastTo_1ab_mab_apply {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Cert.LibKeepdims
-- ==== Proof.KernelBlock.lean ====
/-
  The kernel's body at one index of the block it stores, at the ideal instance.

  The body loads a block of 16 batch members of the keys/values `x0` and of the queries `x1` ([16, 77, 768]) and the
  [77, 77] bias `x2`, and stores ONE value, computed in three stages:
  * the scores `S (b, q, k) = ∑ e, (x1 (b, q, e) · c) · x0 (b, k, e) + x2 (q, k)` — the queries scaled by the named
    constant `c` (the rational 524288/14529495), contracted with the keys over the embedding axis by the first matrix
    product into a zero accumulator, plus the bias broadcast over the members (`scoresBlk_apply`);
  * the row softmax `A (b, q, k) = exp (S (b, q, k) − M) / ∑ j, exp (S (b, q, j) − M)`, `M` the maximum of row
    `(b, q)` from −∞, both reductions keeping their axis and broadcasting it back (`softmaxBlk_apply`);
  * the second matrix product `∑ k, A (b, q, k) · x0 (b, k, d)` into a zero accumulator.
  Together: the stored value at `(b, q, d)` is `Attn.rowAttn` of row `(b, q)`'s scores and column `d` of member
  `b`'s values (`pay_apply`).

  A matrix product with one batch axis and one contracted axis is read at an index as the plain sum over the
  contracted coordinate (`qk_apply`, `av_apply`): the operand indices' coordinates axis by axis, then the
  contraction index re-indexed by its one coordinate.
-/
import proofs.«409186_j51256139710847_3_alg».proof.Proof.Gen.KernelIdeal.Skeleton
import proofs.«409186_j51256139710847_3_alg».proof.Proof.RowAttention
import proofs.«409186_j51256139710847_3_alg».proof.Proof.Consts
import proofs.«409186_j51256139710847_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The two matrix products' operand indices, axis by axis -/

theorem lhs_qk_0 (i : S16x77x77.Idx) (q : dot_S16x77x768_S16x77x768_S16x77x77_2_2_1_1_0_0.contr.Idx) :
    (dot_S16x77x768_S16x77x768_S16x77x77_2_2_1_1_0_0.lhsIdx i q 0).val = (i 0).val := by
  unfold DotDims.lhsIdx
  rw [dif_pos (show (0 : Fin S16x77x768.rank) ∈ dot_S16x77x768_S16x77x768_S16x77x77_2_2_1_1_0_0.lhsBatch by decide)]
  rfl
theorem lhs_qk_1 (i : S16x77x77.Idx) (q : dot_S16x77x768_S16x77x768_S16x77x77_2_2_1_1_0_0.contr.Idx) :
    (dot_S16x77x768_S16x77x768_S16x77x77_2_2_1_1_0_0.lhsIdx i q 1).val = (i 1).val := by
  unfold DotDims.lhsIdx
  rw [dif_neg (show ¬(1 : Fin S16x77x768.rank) ∈ dot_S16x77x768_S16x77x768_S16x77x77_2_2_1_1_0_0.lhsBatch by decide), dif_pos (show (1 : Fin S16x77x768.rank) ∈ dot_S16x77x768_S16x77x768_S16x77x77_2_2_1_1_0_0.lhsNonContracting by decide)]
  rfl
theorem lhs_qk_2 (i : S16x77x77.Idx) (q : dot_S16x77x768_S16x77x768_S16x77x77_2_2_1_1_0_0.contr.Idx) :
    (dot_S16x77x768_S16x77x768_S16x77x77_2_2_1_1_0_0.lhsIdx i q 2).val = (q ⟨0, by decide⟩).val :=
  dot_S16x77x768_S16x77x768_S16x77x77_2_2_1_1_0_0.lhsIdx_val_of_single rfl i q
theorem rhs_qk_0 (i : S16x77x77.Idx) (q : dot_S16x77x768_S16x77x768_S16x77x77_2_2_1_1_0_0.contr.Idx) :
    (dot_S16x77x768_S16x77x768_S16x77x77_2_2_1_1_0_0.rhsIdx i q 0).val = (i 0).val := by
  unfold DotDims.rhsIdx
  rw [dif_pos (show (0 : Fin S16x77x768.rank) ∈ dot_S16x77x768_S16x77x768_S16x77x77_2_2_1_1_0_0.rhsBatch by decide)]
  rfl
theorem rhs_qk_1 (i : S16x77x77.Idx) (q : dot_S16x77x768_S16x77x768_S16x77x77_2_2_1_1_0_0.contr.Idx) :
    (dot_S16x77x768_S16x77x768_S16x77x77_2_2_1_1_0_0.rhsIdx i q 1).val = (i 2).val := by
  unfold DotDims.rhsIdx
  rw [dif_neg (show ¬(1 : Fin S16x77x768.rank) ∈ dot_S16x77x768_S16x77x768_S16x77x77_2_2_1_1_0_0.rhsBatch by decide), dif_pos (show (1 : Fin S16x77x768.rank) ∈ dot_S16x77x768_S16x77x768_S16x77x77_2_2_1_1_0_0.rhsNonContracting by decide)]
  rfl
theorem rhs_qk_2 (i : S16x77x77.Idx) (q : dot_S16x77x768_S16x77x768_S16x77x77_2_2_1_1_0_0.contr.Idx) :
    (dot_S16x77x768_S16x77x768_S16x77x77_2_2_1_1_0_0.rhsIdx i q 2).val = (q ⟨0, by decide⟩).val :=
  dot_S16x77x768_S16x77x768_S16x77x77_2_2_1_1_0_0.rhsIdx_val_of_single rfl i q

theorem lhs_av_0 (i : S16x77x768.Idx) (q : dot_S16x77x77_S16x77x768_S16x77x768_2_1_1_2_0_0.contr.Idx) :
    (dot_S16x77x77_S16x77x768_S16x77x768_2_1_1_2_0_0.lhsIdx i q 0).val = (i 0).val := by
  unfold DotDims.lhsIdx
  rw [dif_pos (show (0 : Fin S16x77x77.rank) ∈ dot_S16x77x77_S16x77x768_S16x77x768_2_1_1_2_0_0.lhsBatch by decide)]
  rfl
theorem lhs_av_1 (i : S16x77x768.Idx) (q : dot_S16x77x77_S16x77x768_S16x77x768_2_1_1_2_0_0.contr.Idx) :
    (dot_S16x77x77_S16x77x768_S16x77x768_2_1_1_2_0_0.lhsIdx i q 1).val = (i 1).val := by
  unfold DotDims.lhsIdx
  rw [dif_neg (show ¬(1 : Fin S16x77x77.rank) ∈ dot_S16x77x77_S16x77x768_S16x77x768_2_1_1_2_0_0.lhsBatch by decide), dif_pos (show (1 : Fin S16x77x77.rank) ∈ dot_S16x77x77_S16x77x768_S16x77x768_2_1_1_2_0_0.lhsNonContracting by decide)]
  rfl
theorem lhs_av_2 (i : S16x77x768.Idx) (q : dot_S16x77x77_S16x77x768_S16x77x768_2_1_1_2_0_0.contr.Idx) :
    (dot_S16x77x77_S16x77x768_S16x77x768_2_1_1_2_0_0.lhsIdx i q 2).val = (q ⟨0, by decide⟩).val :=
  dot_S16x77x77_S16x77x768_S16x77x768_2_1_1_2_0_0.lhsIdx_val_of_single rfl i q
theorem rhs_av_0 (i : S16x77x768.Idx) (q : dot_S16x77x77_S16x77x768_S16x77x768_2_1_1_2_0_0.contr.Idx) :
    (dot_S16x77x77_S16x77x768_S16x77x768_2_1_1_2_0_0.rhsIdx i q 0).val = (i 0).val := by
  unfold DotDims.rhsIdx
  rw [dif_pos (show (0 : Fin S16x77x768.rank) ∈ dot_S16x77x77_S16x77x768_S16x77x768_2_1_1_2_0_0.rhsBatch by decide)]
  rfl
theorem rhs_av_1 (i : S16x77x768.Idx) (q : dot_S16x77x77_S16x77x768_S16x77x768_2_1_1_2_0_0.contr.Idx) :
    (dot_S16x77x77_S16x77x768_S16x77x768_2_1_1_2_0_0.rhsIdx i q 1).val = (q ⟨0, by decide⟩).val :=
  dot_S16x77x77_S16x77x768_S16x77x768_2_1_1_2_0_0.rhsIdx_val_of_single rfl i q
theorem rhs_av_2 (i : S16x77x768.Idx) (q : dot_S16x77x77_S16x77x768_S16x77x768_2_1_1_2_0_0.contr.Idx) :
    (dot_S16x77x77_S16x77x768_S16x77x768_2_1_1_2_0_0.rhsIdx i q 2).val = (i 2).val := by
  unfold DotDims.rhsIdx
  rw [dif_neg (show ¬(2 : Fin S16x77x768.rank) ∈ dot_S16x77x77_S16x77x768_S16x77x768_2_1_1_2_0_0.rhsBatch by decide), dif_pos (show (2 : Fin S16x77x768.rank) ∈ dot_S16x77x77_S16x77x768_S16x77x768_2_1_1_2_0_0.rhsNonContracting by decide)]
  rfl

/-! ## The two matrix products at an index -/

/-- Queries against keys: batch axis 0, the embedding axis contracted; at `(b, q, k)` the sum over the embedding
    coordinate of query row `q` times key row `k` of member `b`. -/
theorem qk_apply (l g : FVec Ideal S16x77x768 .bf16) (b : Fin 16) (q k : Fin 77) :
    matmul dot_S16x77x768_S16x77x768_S16x77x77_2_2_1_1_0_0 none l g (constant S16x77x77 .f32 0x00000000#32) (ix3 b q k)
      = ∑ e : Fin 768, l (ix3 b q e) * g (ix3 b k e) := by
  simp only [matmul]
  rw [Ideal.matmul_constant_zero_apply, ← Equiv.sum_comp (ValueIdx.contrEquiv1 dot_S16x77x768_S16x77x768_S16x77x77_2_2_1_1_0_0 768 rfl rfl).symm]
  refine Finset.sum_congr rfl fun e _ => ?_
  have he := ValueIdx.contrEquiv1_symm_val dot_S16x77x768_S16x77x768_S16x77x77_2_2_1_1_0_0 768 rfl rfl e
  have el : dot_S16x77x768_S16x77x768_S16x77x77_2_2_1_1_0_0.lhsIdx (ix3 b q k) ((ValueIdx.contrEquiv1 dot_S16x77x768_S16x77x768_S16x77x77_2_2_1_1_0_0 768 rfl rfl).symm e) = ix3 b q e := funext fun a => Fin.ext (by
    match a with
    | ⟨0, _⟩ => exact lhs_qk_0 _ _
    | ⟨1, _⟩ => exact lhs_qk_1 _ _
    | ⟨2, _⟩ => exact (lhs_qk_2 _ _).trans he)
  have er : dot_S16x77x768_S16x77x768_S16x77x77_2_2_1_1_0_0.rhsIdx (ix3 b q k) ((ValueIdx.contrEquiv1 dot_S16x77x768_S16x77x768_S16x77x77_2_2_1_1_0_0 768 rfl rfl).symm e) = ix3 b k e := funext fun a => Fin.ext (by
    match a with
    | ⟨0, _⟩ => exact rhs_qk_0 _ _
    | ⟨1, _⟩ => exact rhs_qk_1 _ _
    | ⟨2, _⟩ => exact (rhs_qk_2 _ _).trans he)
  rw [el, er]

/-- Weights against values: batch axis 0, the key axis contracted; at `(b, q, d)` the sum over the keys of weight
    `(b, q, k)` times value `(b, k, d)`. -/
theorem av_apply (w : FVec Ideal S16x77x77 .f32) (g : FVec Ideal S16x77x768 .f32) (b : Fin 16) (q : Fin 77) (d : Fin 768) :
    matmul dot_S16x77x77_S16x77x768_S16x77x768_2_1_1_2_0_0 none w g (constant S16x77x768 .f32 0x00000000#32) (ix3 b q d)
      = ∑ k : Fin 77, w (ix3 b q k) * g (ix3 b k d) := by
  simp only [matmul]
  rw [Ideal.matmul_constant_zero_apply, ← Equiv.sum_comp (ValueIdx.contrEquiv1 dot_S16x77x77_S16x77x768_S16x77x768_2_1_1_2_0_0 77 rfl rfl).symm]
  refine Finset.sum_congr rfl fun k _ => ?_
  have hk := ValueIdx.contrEquiv1_symm_val dot_S16x77x77_S16x77x768_S16x77x768_2_1_1_2_0_0 77 rfl rfl k
  have el : dot_S16x77x77_S16x77x768_S16x77x768_2_1_1_2_0_0.lhsIdx (ix3 b q d) ((ValueIdx.contrEquiv1 dot_S16x77x77_S16x77x768_S16x77x768_2_1_1_2_0_0 77 rfl rfl).symm k) = ix3 b q k := funext fun a => Fin.ext (by
    match a with
    | ⟨0, _⟩ => exact lhs_av_0 _ _
    | ⟨1, _⟩ => exact lhs_av_1 _ _
    | ⟨2, _⟩ => exact (lhs_av_2 _ _).trans hk)
  have er : dot_S16x77x77_S16x77x768_S16x77x768_2_1_1_2_0_0.rhsIdx (ix3 b q d) ((ValueIdx.contrEquiv1 dot_S16x77x77_S16x77x768_S16x77x768_2_1_1_2_0_0 77 rfl rfl).symm k) = ix3 b k d := funext fun a => Fin.ext (by
    match a with
    | ⟨0, _⟩ => exact rhs_av_0 _ _
    | ⟨1, _⟩ => exact (rhs_av_1 _ _).trans hk
    | ⟨2, _⟩ => exact rhs_av_2 _ _)
  rw [el, er]

/-! ## The row reductions at an index -/

/-- The maximum over the keys, from −∞: at row `(b, q)` the fold of `max` over that row's entries. -/
theorem rowMax_apply (s : FVec Ideal S16x77x77 .f32) (b : Fin 16) (q : Fin 77) :
    multiReduction .maximumf [2] S16x77 s 0xFF800000#32 reduces_S16x77x77_S16x77 (.inl rfl) rfl (ix2 b q)
      = Finset.univ.fold max ⊥ (fun k : Fin 77 => s (ix3 b q k)) := by
  refine (Ideal.multiReduction_maximumf_single s 0xFF800000#32 reduces_S16x77x77_S16x77 (.inl rfl) rfl (ix2 b q)).trans ?_
  show Finset.univ.fold max (Ideal.ofBits .f32 0xFF800000#32) _ = _
  rw [Cert.Consts.ofBits_neg_inf]
  refine congrArg (Finset.univ.fold max ⊥) (funext fun k => congrArg s (funext fun a => Fin.ext ?_))
  match a with
  | ⟨0, _⟩ => rfl
  | ⟨1, _⟩ => rfl
  | ⟨2, _⟩ => rfl

/-- The sum over the keys, from zero: at row `(b, q)` the sum of that row's entries. -/
theorem rowSum_apply (s : FVec Ideal S16x77x77 .f32) (b : Fin 16) (q : Fin 77) :
    multiReduction .add [2] S16x77 s 0x00000000#32 reduces_S16x77x77_S16x77 (.inl rfl) rfl (ix2 b q)
      = ∑ k : Fin 77, s (ix3 b q k) := by
  refine (Ideal.multiReduction_add_single s 0x00000000#32 reduces_S16x77x77_S16x77 (.inl rfl) rfl (ix2 b q)).trans ?_
  refine Finset.sum_congr rfl fun k _ => congrArg s (funext fun a => Fin.ext ?_)
  match a with
  | ⟨0, _⟩ => rfl
  | ⟨1, _⟩ => rfl
  | ⟨2, _⟩ => rfl

/-! ## The body's three stages -/

/-- The named scale at the ideal instance: the rational the certificate's table gives it. -/
theorem named_inv_scale :
    Named.named (F := Ideal) Cert.KernelIdeal.κ "inv_scale" (φ := .f32) 0x3D13CD3A#32 = ((524288 / 14529495 : ℝ) : EReal) :=
  IdealRules.named_const.ideal_named_scalar _ _ _ _ rfl

/-- Stage one, the block's scores: scaled queries against keys, plus the bias over the members. -/
def scoresBlk (x0 x1 : FVec Ideal S16x77x768 .f32) (x2 : FVec Ideal S77x77 .f32) : FVec Ideal S16x77x77 .f32 :=
  addf
    (matmul dot_S16x77x768_S16x77x768_S16x77x77_2_2_1_1_0_0 none
      (truncf .bf16 (mulf x1 (broadcast S16x77x768 (Named.named κ "inv_scale" 0x3D13CD3A#32))) bitsLt_bf16_f32)
      (truncf .bf16 x0 bitsLt_bf16_f32) (constant S16x77x77 .f32 0x00000000#32))
    (broadcastTo S16x77x77 (shapeCast S1x77x77 (shapeCast S77x77 x2 shapeCasts_S77x77_S77x77) shapeCasts_S77x77_S1x77x77)
      broadcasts_S1x77x77_S16x77x77)

/-- Stage two, the row softmax of a block of scores, as the body computes it. -/
def softmaxBlk (s : FVec Ideal S16x77x77 .f32) : FVec Ideal S16x77x77 .f32 :=
  have e : FVec Ideal S16x77x77 .f32 :=
    exp (subf s (broadcastTo S16x77x77
      (shapeCast S16x77x1 (multiReduction .maximumf [2] S16x77 s 0xFF800000#32 reduces_S16x77x77_S16x77 (.inl rfl) rfl)
        shapeCasts_S16x77_S16x77x1) broadcasts_S16x77x1_S16x77x77))
  divf e (broadcastTo S16x77x77
    (shapeCast S16x77x1 (multiReduction .add [2] S16x77 e 0x00000000#32 reduces_S16x77x77_S16x77 (.inl rfl) rfl)
      shapeCasts_S16x77_S16x77x1) broadcasts_S16x77x1_S16x77x77)

/-- The stored value is the second product of the softmax of the scores with the values. -/
theorem pay_eq (x0 x1 : FVec Ideal S16x77x768 .f32) (x2 : FVec Ideal S77x77 .f32) :
    k0_pay1 (F := Ideal) x0 x1 x2
      = matmul dot_S16x77x77_S16x77x768_S16x77x768_2_1_1_2_0_0 none (softmaxBlk (scoresBlk x0 x1 x2)) x0 (constant S16x77x768 .f32 0x00000000#32) := rfl

theorem scoresBlk_apply (x0 x1 : FVec Ideal S16x77x768 .f32) (x2 : FVec Ideal S77x77 .f32) (b : Fin 16) (q k : Fin 77) :
    scoresBlk x0 x1 x2 (ix3 b q k)
      = (∑ e : Fin 768, (x1 (ix3 b q e) * ((524288 / 14529495 : ℝ) : EReal)) * x0 (ix3 b k e)) + x2 (ix2 q k) := by
  unfold scoresBlk
  refine (addf_apply _ _ _).trans (congrArg₂ (· + ·) ?_ ?_)
  · refine (qk_apply _ _ b q k).trans (Finset.sum_congr rfl fun e _ => ?_)
    show (x1 (ix3 b q e) * Named.named (F := Ideal) κ "inv_scale" (φ := .f32) 0x3D13CD3A#32) * x0 (ix3 b k e) = _
    rw [named_inv_scale]
  · refine (Cert.LibKeepdims.broadcastTo_1ab_mab_apply _ broadcasts_S1x77x77_S16x77x77 b q k).trans ?_
    refine (shapeCast_ab_1ab_apply _ shapeCasts_S77x77_S1x77x77 0 q k).trans ?_
    rw [shapeCast_self]

theorem softmaxBlk_apply (s : FVec Ideal S16x77x77 .f32) (b : Fin 16) (q k : Fin 77) :
    softmaxBlk s (ix3 b q k)
      = Ideal.div (Ideal.exp (s (ix3 b q k) - Finset.univ.fold max ⊥ (fun j : Fin 77 => s (ix3 b q j))))
          (∑ j : Fin 77, Ideal.exp (s (ix3 b q j) - Finset.univ.fold max ⊥ (fun j : Fin 77 => s (ix3 b q j)))) := by
  have hexp : ∀ j : Fin 77,
      exp (subf s (broadcastTo S16x77x77
        (shapeCast S16x77x1 (multiReduction .maximumf [2] S16x77 s 0xFF800000#32 reduces_S16x77x77_S16x77 (.inl rfl) rfl)
          shapeCasts_S16x77_S16x77x1) broadcasts_S16x77x1_S16x77x77)) (ix3 b q j)
        = Ideal.exp (s (ix3 b q j) - Finset.univ.fold max ⊥ (fun j : Fin 77 => s (ix3 b q j))) := fun j => by
    show Ideal.exp (s (ix3 b q j) - broadcastTo S16x77x77 _ broadcasts_S16x77x1_S16x77x77 (ix3 b q j)) = _
    rw [Cert.LibKeepdims.keptColumn_apply _ shapeCasts_S16x77_S16x77x1 broadcasts_S16x77x1_S16x77x77 b q j, rowMax_apply]
  unfold softmaxBlk
  refine (divf_apply _ _ _).trans (congrArg₂ Ideal.div (hexp k) ?_)
  refine (Cert.LibKeepdims.keptColumn_apply _ shapeCasts_S16x77_S16x77x1 broadcasts_S16x77x1_S16x77x77 b q k).trans ?_
  refine (rowSum_apply _ b q).trans (Finset.sum_congr rfl fun j _ => hexp j)

/-- THE BODY AT AN INDEX: the stored block at `(b, q, d)` is one row of attention — the softmax of row `(b, q)`'s
    scores applied to column `d` of member `b`'s values. -/
theorem pay_apply (x0 x1 : FVec Ideal S16x77x768 .f32) (x2 : FVec Ideal S77x77 .f32) (b : Fin 16) (q : Fin 77) (d : Fin 768) :
    k0_pay1 (F := Ideal) x0 x1 x2 (ix3 b q d)
      = Cert.Attn.rowAttn
          (fun k : Fin 77 => (∑ e : Fin 768, (x1 (ix3 b q e) * ((524288 / 14529495 : ℝ) : EReal)) * x0 (ix3 b k e)) + x2 (ix2 q k))
          (fun k : Fin 77 => x0 (ix3 b k d)) := by
  rw [pay_eq]
  refine (av_apply _ _ b q d).trans ?_
  unfold Cert.Attn.rowAttn
  refine Finset.sum_congr rfl fun k _ => congrArg (· * x0 (ix3 b k d)) ?_
  rw [softmaxBlk_apply]
  simp only [scoresBlk_apply]

end Cert.KernelIdeal.Block

end
-- ==== Proof.AttnSpec.lean ====
/-
  What both programs compute, as one function of the argument arrays, index by index.

  `g` is the [1024, 77, 768] array of keys and values, `l` the queries. Entry `(b, q, d)` of the result is one row of
  attention (`Attn.rowAttn`): the softmax over the keys `k` of the scores of query `q` of member `b`, applied to
  column `d` of member `b`'s values (`attnOf`). The two programs differ in how they spell the score:
  * the reference: `(∑ e, l (b, q, e) · g (b, k, e)) / D − δ (q, k) · P` (`refScore`), `D` the f32 nearest to √768,
    `δ (q, k)` the integer `|q − k|` converted to a float, `P` the penalty 770000;
  * the kernel: `∑ e, (l (b, q, e) · c) · g (b, k, e) + bias (q, k)` (`kernelScore`), `c` the rational `1/D` and the
    bias array holding `(−δ (q, k)) · P`.
  On finite `g` and `l` the two scores are equal (`kernelScore_eq_refScore`): distributivity of the scale over the
  sum, which is where finiteness is used, and `a + (−δ)·P = a − δ·P`.
-/
import proofs.«409186_j51256139710847_3_alg».proof.Proof.RowAttention
import proofs.«409186_j51256139710847_3_alg».proof.Proof.Consts
import Idealize.ShloMosaic.Lib.ValueIdx

noncomputable section

open scoped BigOperators

namespace Cert.Attn

open Idealize.ShloMosaic Idealize.ShloMosaic.ValueIdx

/-- A [1024, 77, 768] array of extended reals. -/
abbrev Arr : Type := (⟨3, ![1024, 77, 768]⟩ : Shape).Idx → EReal
/-- A [77, 77] array of extended reals. -/
abbrev Mat : Type := (⟨2, ![77, 77]⟩ : Shape).Idx → EReal

/-- The distance `|q − k|` of two positions, computed on 32-bit words and converted to a float. -/
def dist (q k : Fin 77) : EReal :=
  FloatOps.sitofp (F := Ideal) .f32 (IntOp.absi (IntOp.subi (BitVec.ofNat 32 q.val) (BitVec.ofNat 32 k.val)))

/-- The distance penalty, the f32 word of 770000. -/
def penalty : EReal := Ideal.ofBits .f32 0x493BFD00#32

/-- The reference's divisor, the f32 word nearest to √768. -/
def scale : EReal := Ideal.ofBits .f32 0x41DDB3D7#32

/-- The whole result from the scores: entry `(b, q, d)` is row `(b, q)`'s softmax applied to column `d` of member `b`. -/
def attnOf (score : Fin 1024 → Fin 77 → Fin 77 → EReal) (g : Arr) : Arr := fun i =>
  rowAttn (score ⟨(i 0).val, (i 0).isLt⟩ ⟨(i 1).val, (i 1).isLt⟩)
    (fun k : Fin 77 => g (ix3 (⟨(i 0).val, (i 0).isLt⟩ : Fin 1024) k (⟨(i 2).val, (i 2).isLt⟩ : Fin 768)))

theorem attnOf_apply (score : Fin 1024 → Fin 77 → Fin 77 → EReal) (g : Arr) (b : Fin 1024) (q : Fin 77) (d : Fin 768) :
    attnOf score g (ix3 b q d) = rowAttn (score b q) (fun k : Fin 77 => g (ix3 b k d)) := rfl

/-- The kernel's score: scaled queries against keys, plus the bias. -/
def kernelScore (g l : Arr) (bias : Mat) (b : Fin 1024) (q k : Fin 77) : EReal :=
  (∑ e : Fin 768, (l (ix3 b q e) * ((524288 / 14529495 : ℝ) : EReal)) * g (ix3 b k e)) + bias (ix2 q k)

/-- The reference's score: queries against keys, divided by the scale, less the distance penalty. -/
def refScore (g l : Arr) (b : Fin 1024) (q k : Fin 77) : EReal :=
  Ideal.div (∑ e : Fin 768, l (ix3 b q e) * g (ix3 b k e)) scale - dist q k * penalty

/-- On finite arrays, with the bias array holding `(−δ)·P`, the kernel's score is the reference's. -/
theorem kernelScore_eq_refScore (g l : Arr) (bias : Mat) (hg : ∀ i, ∃ r : ℝ, g i = r) (hl : ∀ i, ∃ r : ℝ, l i = r)
    (hbias : ∀ q k : Fin 77, bias (ix2 q k) = (-(dist q k)) * penalty) :
    kernelScore g l bias = refScore g l := by
  funext b q k
  unfold kernelScore refScore scale
  rw [hbias, add_neg_mul, Cert.Consts.ofBits_scale]
  refine congrArg (· - dist q k * penalty) ?_
  exact scaled_dot (fun e => l (ix3 b q e)) (fun e => g (ix3 b k e)) (fun e => hl _) (fun e => hg _)
    (524288 / 14529495) (14529495 / 524288) (by norm_num) (by norm_num)

end Cert.Attn

end
-- ==== Proof.KernelArray.lean ====
/-
  From the blocks to the array: what the kernel's result array holds after the run, at the ideal instance.

  The grid has 64 points; point `t` stages members `16·t … 16·t + 15` of the keys/values (window 0) and of the
  queries (window 1), the whole [77, 77] bias (window 2), and writes back block `t` of the result (window 3). The
  stored block at `(b, q, d)` is one row of attention over the staged blocks (`Block.pay_apply`); read through the
  windows, that is entry `(16·t + b, q, d)` of `Attn.attnOf` of the kernel's scores over the whole arrays
  (`block_eq`, `flushed3_eq`). The 64 blocks cover the result array (member `B` lies in block `B / 16`), so the
  array ends holding that function of the arrays the region found (`final3`, `run`).
-/
import proofs.«409186_j51256139710847_3_alg».proof.Proof.Gen.KernelIdeal.Value
import proofs.«409186_j51256139710847_3_alg».proof.Proof.KernelBlock
import proofs.«409186_j51256139710847_3_alg».proof.Proof.AttnSpec

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-! ## One point, over variables -/

/-- If the staged blocks are members `16·T + b` of the arrays `g` and `l`, and the staged bias is `bias`, the value the
    body stores at `(b, q, d)` is entry `(16·T + b, q, d)` of the attention of the kernel's scores. -/
theorem block_eq (g l : Cert.Attn.Arr) (bias : Cert.Attn.Mat)
    (x0 x1 : FVec Ideal S16x77x768 .f32) (x2 : FVec Ideal S77x77 .f32) (T : ℕ) (hT : T < 64)
    (h0 : ∀ (b : Fin 16) (q : Fin 77) (e : Fin 768), x0 (ix3 b q e) = g (ix3 (⟨T * 16 + b.val, by omega⟩ : Fin 1024) q e))
    (h1 : ∀ (b : Fin 16) (q : Fin 77) (e : Fin 768), x1 (ix3 b q e) = l (ix3 (⟨T * 16 + b.val, by omega⟩ : Fin 1024) q e))
    (h2 : ∀ q k : Fin 77, x2 (ix2 q k) = bias (ix2 q k))
    (b : Fin 16) (q : Fin 77) (d : Fin 768) :
    k0_pay1 (F := Ideal) x0 x1 x2 (ix3 b q d)
      = Cert.Attn.attnOf (Cert.Attn.kernelScore g l bias) g (ix3 (⟨T * 16 + b.val, by omega⟩ : Fin 1024) q d) := by
  rw [Cert.KernelIdeal.Block.pay_apply, Cert.Attn.attnOf_apply]
  unfold Cert.Attn.kernelScore
  simp only [h0, h1, h2]

/-! ## The windows' index maps, decided over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- Windows 0, 1 and 3 are at block `t` of the member axis and block 0 of the other two; window 2 is the whole bias. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

variable (m : (ℓ : Loc nD τ sig) → Buf (Elt Ideal) ℓ) (ρ : Dev nD → PrngReg)

/-- The kernel's whole-array function of the arrays the region finds. -/
abbrev result (c : Dev nD) : Cert.Attn.Arr :=
  Cert.Attn.attnOf (Cert.Attn.kernelScore (V m c main_arg0) (V m c main_arg1) (V m c main_v10)) (V m c main_arg0)

/-- WHAT POINT `t` WRITES BACK is block `t` of that function. -/
theorem flushed3_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz3]
  simp only [View.ld_unit_zero (S := S16x77x768) hz3, View.ld_unit_zero (S := S77x77) hz2]
  obtain ⟨e00, e01, e02, e10, e11, e12, e20, e21, e30, e31, e32⟩ := idx_facts t
  have hT : t.val < 64 := Nat.lt_of_lt_of_eq (show t.val < grid0.N from t.isLt) N_0
  funext j
  obtain ⟨b, q, d, rfl⟩ : ∃ (b : Fin 16) (q : Fin 77) (d : Fin 768), j = ix3 b q d :=
    ⟨j 0, j 1, j 2, eq_ix3 (n0 := 16) (n1 := 77) (n2 := 768) j⟩
  show k0_pay1 (F := Ideal) (iblk m c 0 t) (iblk m c 1 t) (iblk m c 2 t) (ix3 b q d)
    = result m c (((cfg0.win 3).blk t).view.emb (ix3 b q d))
  have hemb : ((cfg0.win 3).blk t).view.emb (ix3 b q d) = ix3 (⟨t.val * 16 + b.val, by omega⟩ : Fin 1024) q d := by
    funext a; apply Fin.ext
    match a with
    | ⟨0, _⟩ => show win0_3.index t (0 : Fin 3) * 16 + 1 * b.val = t.val * 16 + b.val; omega
    | ⟨1, _⟩ => show win0_3.index t (1 : Fin 3) * 77 + 1 * q.val = q.val; omega
    | ⟨2, _⟩ => show win0_3.index t (2 : Fin 3) * 768 + 1 * d.val = d.val; omega
  rw [hemb]
  refine block_eq (V m c main_arg0) (V m c main_arg1) (V m c main_v10) (iblk m c 0 t) (iblk m c 1 t) (iblk m c 2 t)
    t.val hT ?_ ?_ ?_ b q d
  · intro b q e
    show V m c main_arg0 (((cfg0.win 0).blk t).view.emb (ix3 b q e)) = V m c main_arg0 (ix3 (⟨t.val * 16 + b.val, by omega⟩ : Fin 1024) q e)
    refine congrArg (V m c main_arg0) (funext fun a => Fin.ext ?_)
    match a with
    | ⟨0, _⟩ => show win0_0.index t (0 : Fin 3) * 16 + 1 * b.val = t.val * 16 + b.val; omega
    | ⟨1, _⟩ => show win0_0.index t (1 : Fin 3) * 77 + 1 * q.val = q.val; omega
    | ⟨2, _⟩ => show win0_0.index t (2 : Fin 3) * 768 + 1 * e.val = e.val; omega
  · intro b q e
    show V m c main_arg1 (((cfg0.win 1).blk t).view.emb (ix3 b q e)) = V m c main_arg1 (ix3 (⟨t.val * 16 + b.val, by omega⟩ : Fin 1024) q e)
    refine congrArg (V m c main_arg1) (funext fun a => Fin.ext ?_)
    match a with
    | ⟨0, _⟩ => show win0_1.index t (0 : Fin 3) * 16 + 1 * b.val = t.val * 16 + b.val; omega
    | ⟨1, _⟩ => show win0_1.index t (1 : Fin 3) * 77 + 1 * q.val = q.val; omega
    | ⟨2, _⟩ => show win0_1.index t (2 : Fin 3) * 768 + 1 * e.val = e.val; omega
  · intro q k
    show V m c main_v10 (((cfg0.win 2).blk t).view.emb (ix2 q k)) = V m c main_v10 (ix2 q k)
    refine congrArg (V m c main_v10) (funext fun a => Fin.ext ?_)
    match a with
    | ⟨0, _⟩ => show win0_2.index t (0 : Fin 2) * 77 + 1 * q.val = q.val; omega
    | ⟨1, _⟩ => show win0_2.index t (1 : Fin 2) * 77 + 1 * k.val = k.val; omega

/-- An index of the result array is in point `t`'s block iff each coordinate is in the block's range on its axis. -/
theorem mem_blk3 (t : Fin cfg0.N) (i : S1024x77x768.Idx) :
    i ∈ ((cfg0.win 3).blk t).view.set ↔ ∀ a : Fin 3, win0_3.index t a * S16x77x768.size a ≤ (i a).val ∧ (i a).val < win0_3.index t a * S16x77x768.size a + S16x77x768.size a := by
  show i ∈ ((View.whole main_v11).slice (win0_3.rect t)).set ↔ _
  rw [View.set_slice_whole, Rect.mem_set_unit]
  exact Iff.rfl

/-- Every index of the result array is in some point's block: member `B` lies in block `B / 16`. -/
theorem cover3 (i : S1024x77x768.Idx) :
    ∃ t : Fin cfg0.N, (cfg0.win 3).flush t = true ∧ i ∈ ((cfg0.win 3).blk t).view.set := by
  have hi0 : (i 0).val < 1024 := (i 0).isLt
  have hi1 : (i 1).val < 77 := (i 1).isLt
  have hi2 : (i 2).val < 768 := (i 2).isLt
  have hN : cfg0.N = 64 := N_0
  let t : Fin cfg0.N := ⟨(i 0).val / 16, by rw [hN]; omega⟩
  obtain ⟨-, -, -, -, -, -, -, -, e30, e31, e32⟩ := idx_facts t
  have ht : t.val = (i 0).val / 16 := rfl
  refine ⟨t, flush0_3 t, ?_⟩
  rw [mem_blk3]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 77 ≤ (i 1).val ∧ (i 1).val < win0_3.index t (1 : Fin 3) * 77 + 77; omega
  | ⟨2, _⟩ => show win0_3.index t (2 : Fin 3) * 768 ≤ (i 2).val ∧ (i 2).val < win0_3.index t (2 : Fin 3) * 768 + 768; omega

/-- THE ARRAY after the run. -/
theorem final3 (c : Dev nD) : (dats m 0 c).arrAt 3 cfg0.N = result m c :=
  (dats m 0 c).arrAt_eq_of_cover 3 (result m c) (fun t _ => flushed3_eq m c t) cover3

/-- The run: the result array at the attention of the kernel's scores over the arguments and the bias the host
    operations computed, the arguments unchanged. -/
theorem run : θ_run defs (onTc (τ := τ) (main (F := Ideal))) ⟨m, fun _ => 0, ρ⟩ fun r => ∀ c : Dev nD,
      r.2.mem ((c : Thread nD τ).loc main_v11)
        = Cert.Attn.attnOf (Cert.Attn.kernelScore (m ((c : Thread nD τ).loc main_arg0)) (m ((c : Thread nD τ).loc main_arg1)) (V m c main_v10))
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final3 m c).trans (by
      show Cert.Attn.attnOf (Cert.Attn.kernelScore (V m c main_arg0) (V m c main_arg1) (V m c main_v10)) (V m c main_arg0) = _
      rw [V_main_arg0, V_main_arg1])), (h c).2⟩)
    (Cert.KernelIdeal.Value.run_blocks m ρ)

end Cert.KernelIdeal.Whole

end
-- ==== Proof.KernelBias.lean ====
/-
  The bias array the kernel's host operations compute before the launch, at an index.

  @main builds it from the positions `0 … 76`: the position down the rows less the position along the columns, as
  32-bit words; its absolute value; converted to a float; negated; times the penalty splat. Read at `(q, k)`:
  `(−δ (q, k)) · P` with `δ (q, k)` the converted word `|q − k|` and `P` the penalty word's value (`bias_apply`).
-/
import proofs.«409186_j51256139710847_3_alg».proof.Proof.Gen.KernelIdeal.Frame
import proofs.«409186_j51256139710847_3_alg».proof.Proof.AttnSpec
import Idealize.ShloMosaic.Lib.StableHlo.Run
import Idealize.ShloMosaic.Lib.Pipeline.Value
import Idealize.ShloMosaic.Lib.ValueIdx

noncomputable section

namespace Cert.KernelIdeal.Bias

open Cert.KernelIdeal Cert.KernelIdeal.Gen Idealize.ShloMosaic Idealize.ShloMosaic.TcCoe Idealize.SL.Sem
open Idealize.ShloMosaic.ValueIdx Idealize.ShloMosaic.StableHlo

/-- The positions broadcast down the rows: entry `(q, k)` is the word `q`. -/
theorem rowPos_apply (q k : Fin 77) :
    broadcastInDim S77x77 ![0, 1] bcast_S77x1_S77x77_0_1
        (broadcastInDim S77x1 ![0] bcast_S77_S77x1_0 (iotaInDim S77 32 0)) (ix2 q k)
      = BitVec.ofNat 32 q.val := by
  refine (broadcastInDim_apply _ bcast_S77x1_S77x77_0_1 _ (ix2 q k) (ix2 q (0 : Fin 1)) (fun a => match a with
    | ⟨0, _⟩ => by show q.val = if (77 : Nat) = 1 then 0 else q.val; rw [if_neg (by decide)]
    | ⟨1, _⟩ => by show 0 = if (1 : Nat) = 1 then 0 else k.val; rw [if_pos rfl])).trans ?_
  exact broadcastInDim_apply _ bcast_S77_S77x1_0 _ (ix2 q (0 : Fin 1)) (ix1 q) (fun a => match a with
    | ⟨0, _⟩ => by show q.val = if (77 : Nat) = 1 then 0 else q.val; rw [if_neg (by decide)])

/-- The positions broadcast along the columns: entry `(q, k)` is the word `k`. -/
theorem colPos_apply (q k : Fin 77) :
    broadcastInDim S77x77 ![0, 1] bcast_S1x77_S77x77_0_1
        (broadcastInDim S1x77 ![1] bcast_S77_S1x77_1 (iotaInDim S77 32 0)) (ix2 q k)
      = BitVec.ofNat 32 k.val := by
  refine (broadcastInDim_apply _ bcast_S1x77_S77x77_0_1 _ (ix2 q k) (ix2 (0 : Fin 1) k) (fun a => match a with
    | ⟨0, _⟩ => by show 0 = if (1 : Nat) = 1 then 0 else q.val; rw [if_pos rfl]
    | ⟨1, _⟩ => by show k.val = if (77 : Nat) = 1 then 0 else k.val; rw [if_neg (by decide)])).trans ?_
  exact broadcastInDim_apply _ bcast_S77_S1x77_1 _ (ix2 (0 : Fin 1) k) (ix1 k) (fun a => match a with
    | ⟨0, _⟩ => by show k.val = if (77 : Nat) = 1 then 0 else k.val; rw [if_neg (by decide)])

/-- The penalty splat reads the penalty everywhere. -/
theorem penalty_apply (q k : Fin 77) :
    broadcastInDim S77x77 ![] bcast_S_S77x77 (constant (F := Ideal) S_ .f32 0x493BFD00#32) (ix2 q k) = Cert.Attn.penalty :=
  broadcastInDim_apply _ bcast_S_S77x77 _ (ix2 q k) ix0 (fun a => a.elim0)

variable (m : (ℓ : Loc nD τ sig) → Buf (Elt Ideal) ℓ)

/-- The bias array as the region finds it is the host operations' term. -/
theorem bias_eq (c : Dev nD) :
    (V m c main_v10 : S77x77.Idx → EReal)
      = mulf (Host.negf (sitofp .f32 (absi (subi
          (broadcastInDim S77x77 ![0, 1] bcast_S77x1_S77x77_0_1 (broadcastInDim S77x1 ![0] bcast_S77_S77x1_0 (iotaInDim S77 32 0)))
          (broadcastInDim S77x77 ![0, 1] bcast_S1x77_S77x77_0_1 (broadcastInDim S1x77 ![1] bcast_S77_S1x77_1 (iotaInDim S77 32 0)))))))
        (broadcastInDim S77x77 ![] bcast_S_S77x77 (constant (F := Ideal) S_ .f32 0x493BFD00#32)) := by
  dsimp only [V, hostOps0]
  after_results

/-- THE BIAS AT AN INDEX: `(−δ (q, k)) · P`. -/
theorem bias_apply (c : Dev nD) (q k : Fin 77) :
    V m c main_v10 (ix2 q k) = (-(Cert.Attn.dist q k)) * Cert.Attn.penalty := by
  refine (congrFun (bias_eq m c) (ix2 q k)).trans ?_
  simp only [mulf, Host.negf, sitofp, absi, subi, rowPos_apply, colPos_apply, penalty_apply,
    Ideal.mulf_def, Ideal.hostNegf_def, Ideal.negf_def]
  rfl

end Cert.KernelIdeal.Bias

end
-- ==== Proof.RefArray.lean ====
/-
  The reference's result as one function of the arguments, index by index, at the ideal instance.

  The reference's operations are read one at a time (the generated read-at-an-index lemmas; the row maximum, a fold,
  by hand): the scores `(∑ e, l (b, q, e) · g (b, k, e)) / D − δ (q, k) · P` (`scores_apply`); their row maximum
  from −∞, the second maximum with −∞ changing nothing (`rowMax_apply`); the exponentials of the shifted scores and
  their row sums from zero (`expo_apply`, `rowSum_apply`); the quotients (`weight_apply`); and the second
  contraction with the values. Together: the result is `Attn.attnOf` of the reference's scores (`result_eq`).
-/
import proofs.«409186_j51256139710847_3_alg».proof.Proof.Gen.ReferenceIdeal.Read
import proofs.«409186_j51256139710847_3_alg».proof.Proof.AttnSpec
import Idealize.ShloMosaic.PureOps.Reduce

noncomputable section

open scoped BigOperators

namespace Cert.ReferenceIdeal.Whole

open Cert.ReferenceIdeal Cert.ReferenceIdeal.Gen Cert.ReferenceIdeal.Read Idealize.ShloMosaic Idealize.ShloMosaic.ValueIdx

/-! ## The composed index functions at coordinates -/

theorem qk_l (b : Fin 1024) (q k : Fin 77) (e : Fin 768) : lidx_main_v8 (ix3 b q k) e = ix3 b q e :=
  funext fun a => by match a with | ⟨0, _⟩ => rfl | ⟨1, _⟩ => rfl | ⟨2, _⟩ => rfl
theorem qk_r (b : Fin 1024) (q k : Fin 77) (e : Fin 768) : ridx_main_v8 (ix3 b q k) e = ix3 b k e :=
  funext fun a => by match a with | ⟨0, _⟩ => rfl | ⟨1, _⟩ => rfl | ⟨2, _⟩ => rfl
theorem av_l (b : Fin 1024) (q : Fin 77) (d : Fin 768) (k : Fin 77) : lidx_main_v27 (ix3 b q d) k = ix3 b q k :=
  funext fun a => by match a with | ⟨0, _⟩ => rfl | ⟨1, _⟩ => rfl | ⟨2, _⟩ => rfl
theorem av_r (b : Fin 1024) (q : Fin 77) (d : Fin 768) (k : Fin 77) : ridx_main_v27 (ix3 b q d) k = ix3 b k d :=
  funext fun a => by match a with | ⟨0, _⟩ => rfl | ⟨1, _⟩ => rfl | ⟨2, _⟩ => rfl
theorem row_of_max (b : Fin 1024) (q k : Fin 77) : idx_main_v19 (idx_main_v20 (ix3 b q k)) = ix2 b q :=
  funext fun a => by match a with | ⟨0, _⟩ => rfl | ⟨1, _⟩ => rfl
theorem row_of_sum (b : Fin 1024) (q k : Fin 77) : idx_main_v24 (idx_main_v25 (ix3 b q k)) = ix2 b q :=
  funext fun a => by match a with | ⟨0, _⟩ => rfl | ⟨1, _⟩ => rfl
theorem sum_idx (b : Fin 1024) (q j : Fin 77) : idx_main_v23 (ix2 b q) j = ix3 b q j :=
  funext fun a => by match a with | ⟨0, _⟩ => rfl | ⟨1, _⟩ => rfl | ⟨2, _⟩ => rfl

/-! ## The stages at an index -/

/-- The distance penalty broadcast over the members: `δ (q, k) · P` at `(b, q, k)`. -/
theorem penalty_apply (b : Fin 1024) (q k : Fin 77) :
    val_main_v14 (F := Ideal) (ix3 b q k) = Cert.Attn.dist q k * Cert.Attn.penalty := by
  rw [val_main_v14_apply, val_main_v13_apply, val_main_v12_apply, val_main_v7_apply, val_main_v6_apply, val_main_v5_apply,
    val_main_v3_apply, val_main_v4_apply, val_main_v1_apply, val_main_v2_apply, val_main_v0_apply, val_main_v0_apply,
    val_main_v11_apply, val_main_cst_0_apply]
  rfl

variable (x0 x1 : (⟨S1024x77x768, .f32⟩ : BufTy).Contents (Elt Ideal))

/-- The scores. -/
theorem scores_apply (b : Fin 1024) (q k : Fin 77) :
    val_main_v15 (F := Ideal) x0 x1 (ix3 b q k) = Cert.Attn.refScore x0 x1 b q k := by
  rw [val_main_v15_apply, val_main_v10_apply, val_main_v8_apply, val_main_v9_apply, val_main_cst_apply, penalty_apply]
  simp only [qk_l, qk_r]
  rfl

/-- The row maximum: the fold of `max` from −∞ over the row's scores. -/
theorem rowMax_apply (b : Fin 1024) (q : Fin 77) :
    val_main_v18 (F := Ideal) x0 x1 (ix2 b q) = Finset.univ.fold max ⊥ (Cert.Attn.refScore x0 x1 b q) := by
  refine (val_main_v18_apply x0 x1 (ix2 b q)).trans ?_
  rw [val_main_v17_apply, val_main_cst_2_apply]
  show max (Ideal.ofBits .f32 0xFF800000#32) (val_main_v16 (F := Ideal) x0 x1 (ix2 b q)) = _
  rw [Cert.Consts.ofBits_neg_inf, max_bot_left]
  unfold val_main_v16
  refine (Host.reduce_eq_fold_single (FloatOps.maximumf (F := Ideal) (φ := .f32)) (val_main_v15 (F := Ideal) x0 x1)
    (val_main_cst_1 (F := Ideal)) reducesTo_S1024x77x77_S1024x77_d2 (by decide) h_S_ (ix2 b q)).trans ?_
  show Finset.univ.fold max (Ideal.ofBits .f32 0xFF800000#32) _ = _
  rw [Cert.Consts.ofBits_neg_inf]
  refine congrArg (Finset.univ.fold max ⊥) (funext fun k => ?_)
  refine Eq.trans (congrArg (val_main_v15 (F := Ideal) x0 x1) (funext fun a => Fin.ext ?_)) (scores_apply x0 x1 b q k)
  match a with
  | ⟨0, _⟩ => rfl
  | ⟨1, _⟩ => rfl
  | ⟨2, _⟩ => rfl

/-- The exponential of the shifted score. -/
theorem expo_apply (b : Fin 1024) (q k : Fin 77) :
    val_main_v22 (F := Ideal) x0 x1 (ix3 b q k)
      = Ideal.exp (Cert.Attn.refScore x0 x1 b q k - Finset.univ.fold max ⊥ (Cert.Attn.refScore x0 x1 b q)) := by
  rw [val_main_v22_apply, val_main_v21_apply, val_main_v20_apply, val_main_v19_apply, scores_apply, row_of_max, rowMax_apply]
  rfl

/-- The row sum of the exponentials, from zero. -/
theorem rowSum_apply (b : Fin 1024) (q : Fin 77) :
    val_main_v23 (F := Ideal) x0 x1 (ix2 b q)
      = ∑ j : Fin 77, Ideal.exp (Cert.Attn.refScore x0 x1 b q j - Finset.univ.fold max ⊥ (Cert.Attn.refScore x0 x1 b q)) := by
  rw [val_main_v23_apply, val_main_cst_3_apply]
  show Ideal.ofBits .f32 0x00000000#32 + _ = _
  rw [Ideal.ofBits_zero_f32, zero_add]
  refine Finset.sum_congr rfl fun j _ => ?_
  rw [sum_idx, expo_apply]

/-- The softmax weight. -/
theorem weight_apply (b : Fin 1024) (q k : Fin 77) :
    val_main_v26 (F := Ideal) x0 x1 (ix3 b q k)
      = Ideal.div (Ideal.exp (Cert.Attn.refScore x0 x1 b q k - Finset.univ.fold max ⊥ (Cert.Attn.refScore x0 x1 b q)))
          (∑ j : Fin 77, Ideal.exp (Cert.Attn.refScore x0 x1 b q j - Finset.univ.fold max ⊥ (Cert.Attn.refScore x0 x1 b q))) := by
  rw [val_main_v26_apply, val_main_v25_apply, val_main_v24_apply, expo_apply, row_of_sum, rowSum_apply]
  rfl

/-- THE REFERENCE'S RESULT is the attention of its scores. -/
theorem result_eq : val_main_v27 (F := Ideal) x0 x1 = Cert.Attn.attnOf (Cert.Attn.refScore x0 x1) x0 := by
  funext i
  obtain ⟨b, q, d, rfl⟩ : ∃ (b : Fin 1024) (q : Fin 77) (d : Fin 768), i = ix3 b q d :=
    ⟨i 0, i 1, i 2, eq_ix3 (n0 := 1024) (n1 := 77) (n2 := 768) i⟩
  rw [val_main_v27_apply, Cert.Attn.attnOf_apply]
  unfold Cert.Attn.rowAttn
  refine Finset.sum_congr rfl fun k _ => ?_
  rw [av_l, av_r, weight_apply]

end Cert.ReferenceIdeal.Whole

end
-- ==== Proof.Finite.lean ====
/-
  What the precondition gives: every entry of both argument arrays is a real number.

  The precondition is the conjunction of two `jnp.all`s, one per argument, of the element test `|x| < +∞`. A
  conjunction of one-bit words that is 1 has both 1; a reduction by `and` over every axis that is 1 had a 1 at every
  index; and on the extended reals `max x (−x) < ⊤` holds of the reals only (`⊥` and `⊤` both have absolute value `⊤`).
-/
import proofs.«409186_j51256139710847_3_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

/-- The scalar shape has one index. -/
instance : Subsingleton S_.Idx := ⟨fun _ _ => funext fun d => d.elim0⟩

/-- An extended real whose absolute value is below `⊤` is a real. -/
theorem real_of_abs_lt_top (x : EReal) (h : max x (-x) < ⊤) : ∃ r : ℝ, x = r := by
  induction x using EReal.rec with
  | bot => simp at h
  | coe r => exact ⟨r, rfl⟩
  | top => simp at h

/-- The element test, read back: the comparison word of `|x| < f32 +∞` is 1 only at a real `x`. -/
theorem real_of_test (x : EReal) (h : Ideal.cmp .olt (max x (-x)) (Ideal.ofBits .f32 0x7F800000#32) = 1#1) :
    ∃ r : ℝ, x = r := by
  have hinf : Ideal.ofBits .f32 0x7F800000#32 = ⊤ := by simp [Ideal.ofBits, Ideal.ieee]
  rw [hinf] at h
  refine real_of_abs_lt_top x ?_
  by_contra hn
  simp [Ideal.cmp, hn] at h

variable [Facts]

/-- Under the precondition both arrays are real at every index. -/
theorem real_of_pre (a0 a1 : FVec Ideal S1024x77x768 .f32) (h : fn (F := Ideal) a0 a1 = fun _ => 1#1) :
    (∀ i, ∃ r : ℝ, a0 i = r) ∧ (∀ i, ∃ r : ℝ, a1 i = r) := by
  obtain ⟨h0, h1⟩ := IntOp.andi_eq_one.1 (congrFun h ix0)
  exact ⟨fun i => real_of_test (a0 i) (Host.reduce_andi_all _ _ _ _ _ h0 i),
    fun i => real_of_test (a1 i) (Host.reduce_andi_all _ _ _ _ _ h1 i)⟩

end Cert.Pre_finite_inputs.Finite

end
-- ==== Proof.lean ====
/-
  Distance-penalised attention over 1024 independent members: with `g` the keys and values and `l` the queries
  ([1024, 77, 768] each), entry `(b, q, d)` of the result is

      ∑ k, softmax_k (score (b, q, ·)) · g (b, k, d),

  the softmax computed with the row maximum subtracted. The reference's score is
  `(∑ e, l (b, q, e) · g (b, k, e)) / D − δ (q, k) · P`, `D` the f32 nearest to √768, `δ (q, k) = |q − k|`, `P` = 770000.
  The kernel works on blocks of 16 members: it scales the queries by the constant `c` before the first contraction,
  adds a bias array `(−δ) · P` computed on the host, and from there on performs the reference's operations. The
  constant `c` is named `1/D` exactly (the rational 524288/14529495, of which the kernel's word is the f32 rounding).

  On finite inputs the two scores are equal: `∑ (l·c)·g = (∑ l·g)·c` is distributivity over real entries, division
  by the nonzero real `D` is multiplication by `1/D`, and `a + (−δ)·P = a − δ·P` on all extended reals. Everything
  after the scores is the same function of them on both sides (`Attn.attnOf`), so the results agree entry by entry.

  The kernel's side: the stored block at an index (Proof/KernelBlock.lean), the bias array at an index
  (Proof/KernelBias.lean), the blocks assembled into the result array (Proof/KernelArray.lean). The reference's side:
  its operations read one at a time (Proof/RefArray.lean). The precondition read back as "every entry is real"
  (Proof/Finite.lean); the common function and the equality of the scores (Proof/AttnSpec.lean, Proof/RowAttention.lean).
-/
import proofs.«409186_j51256139710847_3_alg».proof.Defs
import proofs.«409186_j51256139710847_3_alg».proof.Proof.Gen.Kernel
import proofs.«409186_j51256139710847_3_alg».proof.Proof.Gen.Kernel.Skeleton
import proofs.«409186_j51256139710847_3_alg».proof.Proof.Gen.Kernel.Launch
import proofs.«409186_j51256139710847_3_alg».proof.Proof.Gen.Kernel.Points
import proofs.«409186_j51256139710847_3_alg».proof.Proof.Gen.Kernel.Frame
import proofs.«409186_j51256139710847_3_alg».proof.Proof.Gen.KernelIdeal
import proofs.«409186_j51256139710847_3_alg».proof.Proof.Gen.KernelIdeal.Skeleton
import proofs.«409186_j51256139710847_3_alg».proof.Proof.Gen.KernelIdeal.Launch
import proofs.«409186_j51256139710847_3_alg».proof.Proof.Gen.KernelIdeal.Points
import proofs.«409186_j51256139710847_3_alg».proof.Proof.Gen.KernelIdeal.Frame
import proofs.«409186_j51256139710847_3_alg».proof.Proof.Gen.ReferenceIdeal
import proofs.«409186_j51256139710847_3_alg».proof.Proof.Gen.Pre_finite_inputs
import proofs.«409186_j51256139710847_3_alg».proof.Proof.Gen.KernelIdeal.Value
import proofs.«409186_j51256139710847_3_alg».proof.Proof.Gen.ReferenceIdeal.Run
import proofs.«409186_j51256139710847_3_alg».proof.Proof.Gen.ReferenceIdeal.Read
import proofs.«409186_j51256139710847_3_alg».proof.Proof.KernelArray
import proofs.«409186_j51256139710847_3_alg».proof.Proof.KernelBias
import proofs.«409186_j51256139710847_3_alg».proof.Proof.RefArray
import proofs.«409186_j51256139710847_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one named constant denotes, at the ideal instance, the rational the table gives it. -/
theorem preserves : Cert.preserves_Kernel_KernelIdeal :=
  IdealRules.named_const.statement Cert.KernelIdeal.κ "inv_scale" .f32 0x3D13CD3A#32 ((524288 / 14529495 : ℝ) : EReal) rfl

/-- Both programs end with the attention of the reference's scores over the arguments: the kernel's scores are the
    reference's on finite arrays, and the reference's result is that function outright. -/
theorem algebraic : Cert.algebraic_KernelIdeal_ReferenceIdeal := by
  intro m ρ m' ρ' hpre hagree
  refine ⟨fun c => Cert.Attn.attnOf
      (Cert.Attn.refScore (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩) (Cert.KernelIdeal.Whole.run m ρ)
    obtain ⟨hg, hl⟩ := Cert.Pre_finite_inputs.Finite.real_of_pre _ _ (hpre c)
    exact congrArg (fun s => Cert.Attn.attnOf s (m ((c.tc : Thread Cert.KernelIdeal.nD Cert.KernelIdeal.τ).loc Cert.KernelIdeal.main_arg0)))
      (Cert.Attn.kernelScore_eq_refScore _ _ _ hg hl (Cert.KernelIdeal.Bias.bias_apply m c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v27_eq, Cert.ReferenceIdeal.Whole.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
